-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  main_v18

def fn {F : FTy → Type} [FloatOps F] (main_arg0 : IVec S16384 32) (main_arg1 : FVec F S16384x16384 .f32) (main_arg2 : IVec S16384 32) (main_arg3 : FVec F S10000x64 .f32) (main_arg4 : FVec F S3x64x64 .f32) (main_arg5 : FVec F S3x64 .f32) : IVec S_ 1 :=
  let main_v0 : FVec F S16384x16384 .f32 := Host.absf main_arg1
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_v13 main_v16
-- ==== Kernel.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S16384x1 : Shape := ⟨2, ![16384, 1]⟩
abbrev S16384x64 : Shape := ⟨2, ![16384, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x16384 : Shape := ⟨2, ![128, 16384]⟩
abbrev S128x64 : Shape := ⟨2, ![128, 64]⟩
abbrev S256x64 : Shape := ⟨2, ![256, 64]⟩

abbrev nBuf : Space → Nat
  | .hbm => 58
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S16384, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x64, .f32⟩
  | .hbm, ⟨15, _⟩ => ⟨S1x64x64, .f32⟩
  | .hbm, ⟨16, _⟩ => ⟨S64x64, .f32⟩
  | .hbm, ⟨17, _⟩ => ⟨S16384x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S1x64x64, .f32⟩
  | .hbm, ⟨29, _⟩ => ⟨S64x64, .f32⟩
  | .hbm, ⟨30, _⟩ => ⟨S16384x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S1x64x64, .f32⟩
  | .hbm, ⟨42, _⟩ => ⟨S64x64, .f32⟩
  | .hbm, ⟨43, _⟩ => ⟨S16384x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S256x64, .f32⟩
  | .hbm, ⟨56, _⟩ => ⟨S16384x1, .i32⟩
  | .hbm, ⟨57, _⟩ => ⟨S256x64, .f32⟩
  | .local _ .vmem, ⟨0, _⟩ => ⟨S128x16384, .f32⟩
  | .local _ .vmem, ⟨1, _⟩ => ⟨S128x16384, .f32⟩
  | .local _ .vmem, ⟨2, _⟩ => ⟨S16384x64, .f32⟩
  | .local _ .vmem, ⟨3, _⟩ => ⟨S128x64, .f32⟩
  | .local _ .vmem, ⟨4, _⟩ => ⟨S128x64, .f32⟩
  | .local _ .vmem, ⟨5, _⟩ => ⟨S128x16384, .f32⟩
  | .local _ .vmem, ⟨6, _⟩ => ⟨S128x16384, .f32⟩
  | .local _ .vmem, ⟨7, _⟩ => ⟨S16384x64, .f32⟩
  | .local _ .vmem, ⟨8, _⟩ => ⟨S128x64, .f32⟩
  | .local _ .vmem, ⟨9, _⟩ => ⟨S128x64, .f32⟩
  | .local _ .vmem, ⟨10, _⟩ => ⟨S128x16384, .f32⟩
  | .local _ .vmem, ⟨11, _⟩ => ⟨S128x16384, .f32⟩
  | .local _ .vmem, ⟨12, _⟩ => ⟨S16384x64, .f32⟩
  | .local _ .vmem, ⟨13, _⟩ => ⟨S128x64, .f32⟩
  | .local _ .vmem, ⟨14, _⟩ => ⟨S128x64, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call2_cst : Ref sig .tc := ⟨.hbm, 49, rfl⟩
abbrev main_call2_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  inb_S128x16384_S128x16384_0_0 : ∀ a, (![0, 0] : Fin 2 → Nat) a + S128x16384.size a ≤ S128x16384.size a
  h_S128x16384 : 0 < S128x16384.numel
  bitsLt_bf16_f32 : FTy.bits .bf16 < FTy.bits .f32
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S128x64_S128x64_0_0 : ∀ a, (![0, 0] : Fin 2 → Nat) a + S128x64.size a ≤ S128x64.size a
  h_S128x64 : 0 < S128x64.numel
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  gather_S10000x64_S16384x1_S16384x64_1_0_n_n_0_1_164_wf : GatherDims.WF S10000x64 S16384x1 S16384x64 [1] [0] [] [0] [] 1 ![1, 64]
  dot_S16384x64_S64x64_S16384x64_1_0_0_1_n_n_wf : DotDims.WF S16384x64 S64x64 S16384x64 [1] [0] [0] [1] [] []
  dot_S128x16384_S16384x64_S128x64_1_0_0_1_n_n_wf : DotDims.WF S128x16384 S16384x64 S128x64 [1] [0] [0] [1] [] []
  scatter_S256x64_S16384x1_S16384x64_1_0_0_1_wf : ScatterDims.WF S256x64 S16384x1 S16384x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .f32 = 32 ∨ (Rect.block (s := S16384x64) S128x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S16384x64.size a
  hwx1_2 : ∀ i : grid1.Coords, EltTy.bits .f32 = 32 ∨ (Rect.block (s := S16384x64) S128x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x16384.size a ≤ S16384x16384.size a
  hwx2_0 : ∀ i : grid2.Coords, EltTy.bits .f32 = 32 ∨ (Rect.block (s := S16384x16384) S128x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x64.size a ≤ S16384x64.size a
  hwx2_1 : ∀ i : grid2.Coords, EltTy.bits .f32 = 32 ∨ (Rect.block (s := S16384x64) S16384x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S16384x64.size a
  hwx2_2 : ∀ i : grid2.Coords, EltTy.bits .f32 = 32 ∨ (Rect.block (s := S16384x64) S128x64.size (cc2_transform_2 i) (hinb2_2 i)).WholeWords (EltTy.packing .f32)

variable [Facts₀]

def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf
def scatter_S256x64_S16384x1_S16384x64_1_0_0_1 : ScatterDims S256x64 S16384x1 S16384x64 where
  updateWindowDims := [1]
  insertedWindowDims := [0]
  scatterDimsToOperandDims := [0]
  indexVectorDim := 1
  wf := scatter_S256x64_S16384x1_S16384x64_1_0_0_1_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S128x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S16384x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384 : Shape := ⟨1, ![16384]⟩
abbrev S16384x16384 : Shape := ⟨2, ![16384, 16384]⟩
abbrev S10000x64 : Shape := ⟨2, ![10000, 64]⟩
abbrev S3x64x64 : Shape := ⟨3, ![3, 64, 64]⟩
abbrev S3x64 : Shape := ⟨2, ![3, 64]⟩
abbrev S_ : Shape := ⟨0, ![]⟩
abbrev S16384x1 : Shape := ⟨2, ![16384, 1]⟩
abbrev S16384x64 : Shape := ⟨2, ![16384, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S256x64 : Shape := ⟨2, ![256, 64]⟩

abbrev nBuf : Space → Nat
  | .hbm => 58
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x16384, .f32⟩
  | .hbm, ⟨2, _⟩ => ⟨S16384, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x64, .f32⟩
  | .hbm, ⟨15, _⟩ => ⟨S1x64x64, .f32⟩
  | .hbm, ⟨16, _⟩ => ⟨S64x64, .f32⟩
  | .hbm, ⟨17, _⟩ => ⟨S16384x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S1x64x64, .f32⟩
  | .hbm, ⟨29, _⟩ => ⟨S64x64, .f32⟩
  | .hbm, ⟨30, _⟩ => ⟨S16384x64, .f32⟩
  | .hbm, ⟨31, _⟩ => ⟨S1x64, .f32⟩
  | .hbm, ⟨32, _⟩ => ⟨S64, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S1x64x64, .f32⟩
  | .hbm, ⟨42, _⟩ => ⟨S64x64, .f32⟩
  | .hbm, ⟨43, _⟩ => ⟨S16384x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S256x64, .f32⟩
  | .hbm, ⟨56, _⟩ => ⟨S16384x1, .i32⟩
  | .hbm, ⟨57, _⟩ => ⟨S256x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call2_cst : Ref sig .tc := ⟨.hbm, 49, rfl⟩
abbrev main_call2_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  gather_S10000x64_S16384x1_S16384x64_1_0_n_n_0_1_164_wf : GatherDims.WF S10000x64 S16384x1 S16384x64 [1] [0] [] [0] [] 1 ![1, 64]
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  scatter_S256x64_S16384x1_S16384x64_1_0_0_1_wf : ScatterDims.WF S256x64 S16384x1 S16384x64 [1] [0] [0] 1

variable [Facts₀]

def gather_S10000x64_S16384x1_S16384x64_1_0_n_n_0_1_164 : GatherDims S10000x64 S16384x1 S16384x64 where
  offsetDims := [1]
  collapsedSliceDims := [0]
  operandBatchingDims := []
  startIndicesBatchingDims := []
  startIndexMap := [0]
  indexVectorDim := 1
  sliceSizes := ![1, 64]
  wf := gather_S10000x64_S16384x1_S16384x64_1_0_n_n_0_1_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def scatter_S256x64_S16384x1_S16384x64_1_0_0_1 : ScatterDims S256x64 S16384x1 S16384x64 where
  updateWindowDims := [1]
  insertedWindowDims := [0]
  scatterDimsToOperandDims := [0]
  indexVectorDim := 1
  wf := scatter_S256x64_S16384x1_S16384x64_1_0_0_1_wf

class Facts : Prop extends Facts₀ where

variable [Facts]
-- ==== Proof.BlockProduct.lean ====
/- One grid step of the neighbour aggregation. The step holds 128 rows of the adjacency matrix and the whole
   feature matrix, and writes their product. Over the extended reals the narrowing of both operands to bf16 is
   the identity, the reshape between equal shapes is the identity, and the accumulator starts at zero, so the
   entry (p, q) of what the step writes is the sum over k of (row p, column k of the adjacency rows) times
   (row k, column q of the features). The three aggregation steps of the network compute the same function. -/
import proofs.«152557_j3049426780241_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Aggregate

open Cert.KernelIdeal Cert.KernelIdeal.Gen Idealize.ShloMosaic

/-- Where entry `j` of the product reads the adjacency rows at contraction position `k`: row `j 0`, column `k`. -/
abbrev rowAt (j : S128x64.Idx) (k : Fin 16384) : S128x16384.Idx := fun a => match a with
  | ⟨0, _⟩ => ⟨(j 0).val, (j 0).isLt⟩
  | ⟨1, _⟩ => ⟨k.val, k.isLt⟩
/-- Where it reads the features: row `k`, column `j 1`. -/
abbrev colAt (j : S128x64.Idx) (k : Fin 16384) : S16384x64.Idx := fun a => match a with
  | ⟨0, _⟩ => ⟨k.val, k.isLt⟩
  | ⟨1, _⟩ => ⟨(j 1).val, (j 1).isLt⟩

/-- The left operand's row is the output's row. -/
theorem lhs_axis0 (j : S128x64.Idx) (q : dot_S128x16384_S16384x64_S128x64_1_0_0_1_n_n.contr.Idx) :
    (dot_S128x16384_S16384x64_S128x64_1_0_0_1_n_n.lhsIdx j q 0).val = (j 0).val := by
  unfold DotDims.lhsIdx
  rw [dif_neg (show ¬(0 : Fin S128x16384.rank) ∈ dot_S128x16384_S16384x64_S128x64_1_0_0_1_n_n.lhsBatch by decide), dif_pos (show (0 : Fin S128x16384.rank) ∈ dot_S128x16384_S16384x64_S128x64_1_0_0_1_n_n.lhsNonContracting by decide)]
  rfl
/-- The left operand's column is the contraction position. -/
theorem lhs_axis1 (j : S128x64.Idx) (q : dot_S128x16384_S16384x64_S128x64_1_0_0_1_n_n.contr.Idx) :
    (dot_S128x16384_S16384x64_S128x64_1_0_0_1_n_n.lhsIdx j q 1).val = (q ⟨0, by decide⟩).val :=
  dot_S128x16384_S16384x64_S128x64_1_0_0_1_n_n.lhsIdx_val_of_single rfl j q
/-- The right operand's row is the contraction position. -/
theorem rhs_axis0 (j : S128x64.Idx) (q : dot_S128x16384_S16384x64_S128x64_1_0_0_1_n_n.contr.Idx) :
    (dot_S128x16384_S16384x64_S128x64_1_0_0_1_n_n.rhsIdx j q 0).val = (q ⟨0, by decide⟩).val :=
  dot_S128x16384_S16384x64_S128x64_1_0_0_1_n_n.rhsIdx_val_of_single rfl j q
/-- The right operand's column is the output's column. -/
theorem rhs_axis1 (j : S128x64.Idx) (q : dot_S128x16384_S16384x64_S128x64_1_0_0_1_n_n.contr.Idx) :
    (dot_S128x16384_S16384x64_S128x64_1_0_0_1_n_n.rhsIdx j q 1).val = (j 1).val := by
  unfold DotDims.rhsIdx
  rw [dif_neg (show ¬(1 : Fin S16384x64.rank) ∈ dot_S128x16384_S16384x64_S128x64_1_0_0_1_n_n.rhsBatch by decide), dif_pos (show (1 : Fin S16384x64.rank) ∈ dot_S128x16384_S16384x64_S128x64_1_0_0_1_n_n.rhsNonContracting by decide)]
  rfl

/-- What one step writes, entry by entry: the sum over the 16384 contraction positions of adjacency times features. -/
theorem pay_apply (x0 : Vec Ideal S128x16384 .f32) (x1 : Vec Ideal S16384x64 .f32) (j : S128x64.Idx) :
    k0_pay1 (F := Ideal) x0 x1 j = ∑ k : Fin 16384, x0 (rowAt j k) * x1 (colAt j k) := by
  unfold k0_pay1
  show FloatOps.matmul dot_S128x16384_S16384x64_S128x64_1_0_0_1_n_n none _ _ (constant S128x64 .f32 0x00000000#32) j = _
  rw [Ideal.matmul_constant_zero_apply, ← Equiv.sum_comp (ValueIdx.contrEquiv1 dot_S128x16384_S16384x64_S128x64_1_0_0_1_n_n 16384 rfl rfl).symm]
  refine Finset.sum_congr rfl fun k _ => ?_
  have hk := ValueIdx.contrEquiv1_symm_val dot_S128x16384_S16384x64_S128x64_1_0_0_1_n_n 16384 rfl rfl k
  have el : dot_S128x16384_S16384x64_S128x64_1_0_0_1_n_n.lhsIdx j ((ValueIdx.contrEquiv1 dot_S128x16384_S16384x64_S128x64_1_0_0_1_n_n 16384 rfl rfl).symm k) = rowAt j k := funext fun a => Fin.ext (by
    match a with
    | ⟨0, _⟩ => exact lhs_axis0 _ _
    | ⟨1, _⟩ => exact (lhs_axis1 _ _).trans hk)
  have er : dot_S128x16384_S16384x64_S128x64_1_0_0_1_n_n.rhsIdx j ((ValueIdx.contrEquiv1 dot_S128x16384_S16384x64_S128x64_1_0_0_1_n_n 16384 rfl rfl).symm k) = colAt j k := funext fun a => Fin.ext (by
    match a with
    | ⟨0, _⟩ => exact (rhs_axis0 _ _).trans hk
    | ⟨1, _⟩ => exact rhs_axis1 _ _)
  rw [ValueIdx.truncf_apply, ValueIdx.truncf_apply, shapeCast_self, el, er]

/-- Where entry `i` of the whole product reads the adjacency matrix at contraction position `k`: row `i 0`, column `k`. -/
abbrev arow (i : S16384x64.Idx) (k : Fin 16384) : S16384x16384.Idx := fun a => match a with
  | ⟨0, _⟩ => ⟨(i 0).val, (i 0).isLt⟩
  | ⟨1, _⟩ => ⟨k.val, k.isLt⟩
/-- Where it reads the features: row `k`, column `i 1`. -/
abbrev hcol (i : S16384x64.Idx) (k : Fin 16384) : S16384x64.Idx := fun a => match a with
  | ⟨0, _⟩ => ⟨k.val, k.isLt⟩
  | ⟨1, _⟩ => ⟨(i 1).val, (i 1).isLt⟩

/-- The whole aggregation: adjacency matrix times feature matrix, entry by entry, over the extended reals. -/
def product (A : S16384x16384.Idx → EReal) (H : S16384x64.Idx → EReal) : S16384x64.Idx → EReal :=
  fun i => ∑ k : Fin 16384, A (arow i k) * H (hcol i k)

/-- The second and third aggregation steps are the first one's function. -/
theorem pay1_eq {F : FTy → Type} [FloatOps F] : k1_pay1 (F := F) = k0_pay1 (F := F) := rfl
theorem pay2_eq {F : FTy → Type} [FloatOps F] : k2_pay1 (F := F) = k0_pay1 (F := F) := rfl

end Cert.KernelIdeal.Aggregate

end
-- ==== Proof.Region0.lean ====
/- The first aggregation region as one function of the arrays it finds. The grid has 128 steps; step t holds rows
   128·t … 128·t + 127 of the adjacency matrix and all of the feature matrix, and writes rows 128·t … 128·t + 127
   of the output. Each written block is therefore the same rows of the whole product adjacency × features, and
   the 128 blocks tile the output, so the output array ends as the whole product. -/
import proofs.«152557_j3049426780241_1_alg».proof.Proof.Gen.KernelIdeal.Frame
import proofs.«152557_j3049426780241_1_alg».proof.Proof.BlockProduct

set_option maxRecDepth 16384

noncomputable section

namespace Cert.KernelIdeal.Aggregate

open Cert.KernelIdeal Cert.KernelIdeal.Gen Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The adjacency matrix and the features as the region finds them, at their literal shapes. -/
abbrev adj (c : Dev nD) : S16384x16384.Idx → EReal := V c main_arg1
abbrev feat (c : Dev nD) : S16384x64.Idx → EReal := V c main_v15

theorem offs_zero : (![0, 0] : Fin 2 → Nat) = fun _ => 0 := funext fun a => by fin_cases a <;> rfl

/-- The block index maps, decided over the grid: the adjacency rows and the output move with the step along
    axis 0, and the features stay at block (0, 0). -/
theorem steps0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxRecDepth 65536 in
/-- What step `t` writes back is block `t` of the whole product of the arrays the region finds. -/
theorem flushed0_eq (c : Dev nD) (t : Fin cfg0.N) :
    (dat0 V c).flushed 2 t = ((cfg0.win 2).blk t).view.read (Elt Ideal) (product (adj V c) (feat V c)) := by
  show (cfg0.win 2).cut (grid0.coords t) ((dat0 V c).after 2 t) = _
  rw [after0_2]
  unfold out0_2
  rw [View.canon_unit_zero offs_zero]
  simp only [View.ld_unit_zero (S := S128x16384) offs_zero, View.ld_unit_zero (S := S16384x64) offs_zero]
  obtain ⟨e0, e1, e2, e3, e4, e5⟩ := steps0 t
  funext j
  refine (pay_apply _ _ j).trans ?_
  show _ = product (adj V c) (feat V c) (((cfg0.win 2).blk t).view.emb j)
  unfold product
  refine Finset.sum_congr rfl fun k _ => ?_
  show adj V c (((cfg0.win 0).blk t).view.emb (rowAt j k)) * feat V c (((cfg0.win 1).blk t).view.emb (colAt j k))
    = adj V c (arow (((cfg0.win 2).blk t).view.emb j) k) * feat V c (hcol (((cfg0.win 2).blk t).view.emb j) k)
  have h0 : ((cfg0.win 0).blk t).view.emb (rowAt j k) = arow (((cfg0.win 2).blk t).view.emb j) k := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 16384 + 1 * k.val = k.val; omega
  have h1 : ((cfg0.win 1).blk t).view.emb (colAt j k) = hcol (((cfg0.win 2).blk t).view.emb j) k := by
    funext a; apply Fin.ext
    match a with
    | ⟨0, _⟩ => show win0_1.index t (0 : Fin 2) * 16384 + 1 * k.val = k.val; omega
    | ⟨1, _⟩ => show win0_1.index t (1 : Fin 2) * 64 + 1 * (j 1).val = win0_2.index t (1 : Fin 2) * 64 + 1 * (j 1).val; omega
  rw [h0, h1]

/-- An index of the output is in step `t`'s block iff each coordinate is in the block's range on its axis. -/
theorem mem_blk0 (t : Fin cfg0.N) (i : S16384x64.Idx) :
    i ∈ ((cfg0.win 2).blk t).view.set ↔ ∀ a : Fin 2, win0_2.index t a * S128x64.size a ≤ (i a).val ∧ (i a).val < win0_2.index t a * S128x64.size a + S128x64.size a := by
  show i ∈ ((View.whole main_v16).slice (win0_2.rect t)).set ↔ _
  rw [View.set_slice_whole, Rect.mem_set_unit]
  exact Iff.rfl

/-- Every row of the output belongs to the step that holds it: row r to step r / 128. -/
theorem cover0 (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  refine ⟨⟨(i 0).val / 128, by show (i 0).val / 128 < 128; omega⟩, flush0_2 _, ?_⟩
  rw [mem_blk0]
  obtain ⟨e0, e1, e2, e3, e4, e5⟩ := steps0 ⟨(i 0).val / 128, by show (i 0).val / 128 < 128; omega⟩
  have e4' : win0_2.index ⟨(i 0).val / 128, by show (i 0).val / 128 < 128; omega⟩ (0 : Fin 2) = (i 0).val / 128 := e4
  intro a
  match a with
  | ⟨0, _⟩ => show win0_2.index _ (0 : Fin 2) * 128 ≤ (i 0).val ∧ (i 0).val < win0_2.index _ (0 : Fin 2) * 128 + 128; omega
  | ⟨1, _⟩ => show win0_2.index _ (1 : Fin 2) * 64 ≤ (i 1).val ∧ (i 1).val < win0_2.index _ (1 : Fin 2) * 64 + 64; omega

/-- The output array after the region: the whole product of the adjacency matrix and the features it found. -/
theorem final0 (c : Dev nD) : (dat0 V c).arrAt 2 cfg0.N = product (adj V c) (feat V c) :=
  (dat0 V c).arrAt_eq_of_cover 2 (product (adj V c) (feat V c)) (fun t _ => flushed0_eq V c t) cover0

end Cert.KernelIdeal.Aggregate

end
-- ==== Proof.Region1.lean ====
import proofs.«152557_j3049426780241_1_alg».proof.Proof.Gen.KernelIdeal.Frame
import proofs.«152557_j3049426780241_1_alg».proof.Proof.BlockProduct

set_option maxRecDepth 16384

noncomputable section

namespace Cert.KernelIdeal.Aggregate

open Cert.KernelIdeal Cert.KernelIdeal.Gen Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The adjacency matrix and the features as the region finds them, at their literal shapes. -/
abbrev adj1 (c : Dev nD) : S16384x16384.Idx → EReal := V c main_arg1
abbrev feat1 (c : Dev nD) : S16384x64.Idx → EReal := V c main_v26

theorem offs_zero1 : (![0, 0] : Fin 2 → Nat) = fun _ => 0 := funext fun a => by fin_cases a <;> rfl

/-- The block index maps, decided over the grid: the adjacency rows and the output move with the step along
    axis 0, and the features stay at block (0, 0). -/
theorem steps1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

set_option maxRecDepth 65536 in
/-- What step `t` writes back is block `t` of the whole product of the arrays the region finds. -/
theorem flushed1_eq (c : Dev nD) (t : Fin cfg1.N) :
    (dat1 V c).flushed 2 t = ((cfg1.win 2).blk t).view.read (Elt Ideal) (product (adj1 V c) (feat1 V c)) := by
  show (cfg1.win 2).cut (grid1.coords t) ((dat1 V c).after 2 t) = _
  rw [after1_2]
  unfold out1_2
  rw [View.canon_unit_zero offs_zero1]
  simp only [View.ld_unit_zero (S := S128x16384) offs_zero1, View.ld_unit_zero (S := S16384x64) offs_zero1]
  obtain ⟨e0, e1, e2, e3, e4, e5⟩ := steps1 t
  funext j
  rw [pay1_eq]
  refine (pay_apply _ _ j).trans ?_
  show _ = product (adj1 V c) (feat1 V c) (((cfg1.win 2).blk t).view.emb j)
  unfold product
  refine Finset.sum_congr rfl fun k _ => ?_
  show adj1 V c (((cfg1.win 0).blk t).view.emb (rowAt j k)) * feat1 V c (((cfg1.win 1).blk t).view.emb (colAt j k))
    = adj1 V c (arow (((cfg1.win 2).blk t).view.emb j) k) * feat1 V c (hcol (((cfg1.win 2).blk t).view.emb j) k)
  have h0 : ((cfg1.win 0).blk t).view.emb (rowAt j k) = arow (((cfg1.win 2).blk t).view.emb j) k := by
    funext a; apply Fin.ext
    match a with
    | ⟨0, _⟩ => show win1_0.index t (0 : Fin 2) * 128 + 1 * (j 0).val = win1_2.index t (0 : Fin 2) * 128 + 1 * (j 0).val; omega
    | ⟨1, _⟩ => show win1_0.index t (1 : Fin 2) * 16384 + 1 * k.val = k.val; omega
  have h1 : ((cfg1.win 1).blk t).view.emb (colAt j k) = hcol (((cfg1.win 2).blk t).view.emb j) k := by
    funext a; apply Fin.ext
    match a with
    | ⟨0, _⟩ => show win1_1.index t (0 : Fin 2) * 16384 + 1 * k.val = k.val; omega
    | ⟨1, _⟩ => show win1_1.index t (1 : Fin 2) * 64 + 1 * (j 1).val = win1_2.index t (1 : Fin 2) * 64 + 1 * (j 1).val; omega
  rw [h0, h1]

/-- An index of the output is in step `t`'s block iff each coordinate is in the block's range on its axis. -/
theorem mem_blk1 (t : Fin cfg1.N) (i : S16384x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v27).slice (win1_2.rect t)).set ↔ _
  rw [View.set_slice_whole, Rect.mem_set_unit]
  exact Iff.rfl

/-- Every row of the output belongs to the step that holds it: row r to step r / 128. -/
theorem cover1 (i : S16384x64.Idx) : ∃ t : Fin cfg1.N, (cfg1.win 2).flush t = true ∧ i ∈ ((cfg1.win 2).blk t).view.set := by
  have hi0 : (i 0).val < 16384 := (i 0).isLt
  have hi1 : (i 1).val < 64 := (i 1).isLt
  refine ⟨⟨(i 0).val / 128, by show (i 0).val / 128 < 128; omega⟩, flush1_2 _, ?_⟩
  rw [mem_blk1]
  obtain ⟨e0, e1, e2, e3, e4, e5⟩ := steps1 ⟨(i 0).val / 128, by show (i 0).val / 128 < 128; omega⟩
  have e4' : win1_2.index ⟨(i 0).val / 128, by show (i 0).val / 128 < 128; omega⟩ (0 : Fin 2) = (i 0).val / 128 := e4
  intro a
  match a with
  | ⟨0, _⟩ => show win1_2.index _ (0 : Fin 2) * 128 ≤ (i 0).val ∧ (i 0).val < win1_2.index _ (0 : Fin 2) * 128 + 128; omega
  | ⟨1, _⟩ => show win1_2.index _ (1 : Fin 2) * 64 ≤ (i 1).val ∧ (i 1).val < win1_2.index _ (1 : Fin 2) * 64 + 64; omega

/-- The output array after the region: the whole product of the adjacency matrix and the features it found. -/
theorem final1 (c : Dev nD) : (dat1 V c).arrAt 2 cfg1.N = product (adj1 V c) (feat1 V c) :=
  (dat1 V c).arrAt_eq_of_cover 2 (product (adj1 V c) (feat1 V c)) (fun t _ => flushed1_eq V c t) cover1

end Cert.KernelIdeal.Aggregate

end
-- ==== Proof.Region2.lean ====
import proofs.«152557_j3049426780241_1_alg».proof.Proof.Gen.KernelIdeal.Frame
import proofs.«152557_j3049426780241_1_alg».proof.Proof.BlockProduct

set_option maxRecDepth 16384

noncomputable section

namespace Cert.KernelIdeal.Aggregate

open Cert.KernelIdeal Cert.KernelIdeal.Gen Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The adjacency matrix and the features as the region finds them, at their literal shapes. -/
abbrev adj2 (c : Dev nD) : S16384x16384.Idx → EReal := V c main_arg1
abbrev feat2 (c : Dev nD) : S16384x64.Idx → EReal := V c main_v37

theorem offs_zero2 : (![0, 0] : Fin 2 → Nat) = fun _ => 0 := funext fun a => by fin_cases a <;> rfl

/-- The block index maps, decided over the grid: the adjacency rows and the output move with the step along
    axis 0, and the features stay at block (0, 0). -/
theorem steps2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxRecDepth 65536 in
/-- What step `t` writes back is block `t` of the whole product of the arrays the region finds. -/
theorem flushed2_eq (c : Dev nD) (t : Fin cfg2.N) :
    (dat2 V c).flushed 2 t = ((cfg2.win 2).blk t).view.read (Elt Ideal) (product (adj2 V c) (feat2 V c)) := by
  show (cfg2.win 2).cut (grid2.coords t) ((dat2 V c).after 2 t) = _
  rw [after2_2]
  unfold out2_2
  rw [View.canon_unit_zero offs_zero2]
  simp only [View.ld_unit_zero (S := S128x16384) offs_zero2, View.ld_unit_zero (S := S16384x64) offs_zero2]
  obtain ⟨e0, e1, e2, e3, e4, e5⟩ := steps2 t
  funext j
  rw [pay2_eq]
  refine (pay_apply _ _ j).trans ?_
  show _ = product (adj2 V c) (feat2 V c) (((cfg2.win 2).blk t).view.emb j)
  unfold product
  refine Finset.sum_congr rfl fun k _ => ?_
  show adj2 V c (((cfg2.win 0).blk t).view.emb (rowAt j k)) * feat2 V c (((cfg2.win 1).blk t).view.emb (colAt j k))
    = adj2 V c (arow (((cfg2.win 2).blk t).view.emb j) k) * feat2 V c (hcol (((cfg2.win 2).blk t).view.emb j) k)
  have h0 : ((cfg2.win 0).blk t).view.emb (rowAt j k) = arow (((cfg2.win 2).blk t).view.emb j) k := by
    funext a; apply Fin.ext
    match a with
    | ⟨0, _⟩ => show win2_0.index t (0 : Fin 2) * 128 + 1 * (j 0).val = win2_2.index t (0 : Fin 2) * 128 + 1 * (j 0).val; omega
    | ⟨1, _⟩ => show win2_0.index t (1 : Fin 2) * 16384 + 1 * k.val = k.val; omega
  have h1 : ((cfg2.win 1).blk t).view.emb (colAt j k) = hcol (((cfg2.win 2).blk t).view.emb j) k := by
    funext a; apply Fin.ext
    match a with
    | ⟨0, _⟩ => show win2_1.index t (0 : Fin 2) * 16384 + 1 * k.val = k.val; omega
    | ⟨1, _⟩ => show win2_1.index t (1 : Fin 2) * 64 + 1 * (j 1).val = win2_2.index t (1 : Fin 2) * 64 + 1 * (j 1).val; omega
  rw [h0, h1]

/-- An index of the output is in step `t`'s block iff each coordinate is in the block's range on its axis. -/
theorem mem_blk2 (t : Fin cfg2.N) (i : S16384x64.Idx) :
    i ∈ ((cfg2.win 2).blk t).view.set ↔ ∀ a : Fin 2, win2_2.index t a * S128x64.size a ≤ (i a).val ∧ (i a).val < win2_2.index t a * S128x64.size a + S128x64.size a := by
  show i ∈ ((View.whole main_v38).slice (win2_2.rect t)).set ↔ _
  rw [View.set_slice_whole, Rect.mem_set_unit]
  exact Iff.rfl

/-- Every row of the output belongs to the step that holds it: row r to step r / 128. -/
theorem cover2 (i : S16384x64.Idx) : ∃ t : Fin cfg2.N, (cfg2.win 2).flush t = true ∧ i ∈ ((cfg2.win 2).blk t).view.set := by
  have hi0 : (i 0).val < 16384 := (i 0).isLt
  have hi1 : (i 1).val < 64 := (i 1).isLt
  refine ⟨⟨(i 0).val / 128, by show (i 0).val / 128 < 128; omega⟩, flush2_2 _, ?_⟩
  rw [mem_blk2]
  obtain ⟨e0, e1, e2, e3, e4, e5⟩ := steps2 ⟨(i 0).val / 128, by show (i 0).val / 128 < 128; omega⟩
  have e4' : win2_2.index ⟨(i 0).val / 128, by show (i 0).val / 128 < 128; omega⟩ (0 : Fin 2) = (i 0).val / 128 := e4
  intro a
  match a with
  | ⟨0, _⟩ => show win2_2.index _ (0 : Fin 2) * 128 ≤ (i 0).val ∧ (i 0).val < win2_2.index _ (0 : Fin 2) * 128 + 128; omega
  | ⟨1, _⟩ => show win2_2.index _ (1 : Fin 2) * 64 ≤ (i 1).val ∧ (i 1).val < win2_2.index _ (1 : Fin 2) * 64 + 64; omega

/-- The output array after the region: the whole product of the adjacency matrix and the features it found. -/
theorem final2 (c : Dev nD) : (dat2 V c).arrAt 2 cfg2.N = product (adj2 V c) (feat2 V c) :=
  (dat2 V c).arrAt_eq_of_cover 2 (product (adj2 V c) (feat2 V c)) (fun t _ => flushed2_eq V c t) cover2

end Cert.KernelIdeal.Aggregate

end
-- ==== Proof.Layers.lean ====
/- The idealized kernel's result, boundary by boundary, against the reference's stages. Between the aggregation
   regions the program runs the same host operations as the reference: the embedding lookup, and per layer a
   linear map, a bias, a rectifier and the residual sum; at the end the sum over each molecule's atoms. Each
   aggregation region leaves the product adjacency × features, which is the reference's matrix product read entry
   by entry. No region and no host operation writes an argument. So at every boundary the buffers the next
   stretch reads are the reference's stages of the launch arguments, and the result is the reference's. -/
import proofs.«152557_j3049426780241_1_alg».proof.Proof.Gen.KernelIdeal.Frame
import proofs.«152557_j3049426780241_1_alg».proof.Proof.Gen.ReferenceIdeal.Read
import proofs.«152557_j3049426780241_1_alg».proof.Proof.Region0
import proofs.«152557_j3049426780241_1_alg».proof.Proof.Region1
import proofs.«152557_j3049426780241_1_alg».proof.Proof.Region2

set_option maxRecDepth 16384

noncomputable section

namespace Cert.KernelIdeal.Layers

open Cert.KernelIdeal Cert.KernelIdeal.Gen Cert.KernelIdeal.Aggregate
open Idealize.ShloMosaic Idealize.ShloMosaic.TcCoe Idealize.ShloMosaic.StableHlo
open Idealize.SL Idealize.SL.Sem
open Cert.ReferenceIdeal.Read

/-! ## The reference's matrix product is the whole product -/

section Product
variable (x0 : (⟨S16384, .i32⟩ : BufTy).Contents (Elt Ideal)) (x1 : (⟨S16384x16384, .f32⟩ : BufTy).Contents (Elt Ideal))
  (x3 : (⟨S10000x64, .f32⟩ : BufTy).Contents (Elt Ideal)) (x4 : (⟨S3x64x64, .f32⟩ : BufTy).Contents (Elt Ideal))
  (x5 : (⟨S3x64, .f32⟩ : BufTy).Contents (Elt Ideal))

/-- Layer 1: adjacency times the first hidden features. -/
theorem v16_product : val_main_v16 (F := Ideal) x0 x1 x3 x4 x5 = product x1 (val_main_v15 (F := Ideal) x0 x3 x4 x5) := by
  funext i
  rw [val_main_v16_apply]
  rfl
/-- Layer 2: adjacency times the second hidden features. -/
theorem v27_product : val_main_v27 (F := Ideal) x0 x1 x3 x4 x5 = product x1 (val_main_v26 (F := Ideal) x0 x1 x3 x4 x5) := by
  funext i
  rw [val_main_v27_apply]
  rfl
/-- Layer 3: adjacency times the third hidden features. -/
theorem v38_product : val_main_v38 (F := Ideal) x0 x1 x3 x4 x5 = product x1 (val_main_v37 (F := Ideal) x0 x1 x3 x4 x5) := by
  funext i
  rw [val_main_v38_apply]
  rfl
end Product

variable (m : (ℓ : Loc nD τ sig) → Buf (Elt Ideal) ℓ) (ρ : Dev nD → PrngReg)

/-! ## The launch arguments on a device, and that every boundary still holds them -/

abbrev fingerprints (c : Dev nD) := m ((c : Thread nD τ).loc main_arg0)
abbrev adjacency (c : Dev nD) := m ((c : Thread nD τ).loc main_arg1)
abbrev segments (c : Dev nD) := m ((c : Thread nD τ).loc main_arg2)
abbrev table (c : Dev nD) := m ((c : Thread nD τ).loc main_arg3)
abbrev weights (c : Dev nD) := m ((c : Thread nD τ).loc main_arg4)
abbrev biases (c : Dev nD) := m ((c : Thread nD τ).loc main_arg5)

theorem w2_adjacency (c : Dev nD) : W2 m ρ c (Proc.devRef .tc main_arg1) = adjacency m c := by
  show StableHlo.after hostOps0_1 (StableHlo.after hostOps0 (W0 m ρ c)) (Proc.devRef .tc main_arg1) = _
  after_results_simp <;> rfl
theorem w2_segments (c : Dev nD) : W2 m ρ c (Proc.devRef .tc main_arg2) = segments m c := by
  show StableHlo.after hostOps0_1 (StableHlo.after hostOps0 (W0 m ρ c)) (Proc.devRef .tc main_arg2) = _
  after_results_simp <;> rfl
theorem w2_weights (c : Dev nD) : W2 m ρ c (Proc.devRef .tc main_arg4) = weights m c := by
  show StableHlo.after hostOps0_1 (StableHlo.after hostOps0 (W0 m ρ c)) (Proc.devRef .tc main_arg4) = _
  after_results_simp <;> rfl
theorem w2_biases (c : Dev nD) : W2 m ρ c (Proc.devRef .tc main_arg5) = biases m c := by
  show StableHlo.after hostOps0_1 (StableHlo.after hostOps0 (W0 m ρ c)) (Proc.devRef .tc main_arg5) = _
  after_results_simp <;> rfl
theorem w3_adjacency (c : Dev nD) : W3 m ρ c (Proc.devRef .tc main_arg1) = adjacency m c :=
  ((W3_arr m ρ c 0).trans (((dat0 (V2 m ρ) c).arrAt_in 0 rfl _).trans (A_eq0 (V2 m ρ) c 0))).trans (w2_adjacency m ρ c)
theorem w3_segments (c : Dev nD) : W3 m ρ c (Proc.devRef .tc main_arg2) = segments m c :=
  (W3_of_ne m ρ c main_arg2 (by decide)).trans (w2_segments m ρ c)
theorem w3_weights (c : Dev nD) : W3 m ρ c (Proc.devRef .tc main_arg4) = weights m c :=
  (W3_of_ne m ρ c main_arg4 (by decide)).trans (w2_weights m ρ c)
theorem w3_biases (c : Dev nD) : W3 m ρ c (Proc.devRef .tc main_arg5) = biases m c :=
  (W3_of_ne m ρ c main_arg5 (by decide)).trans (w2_biases m ρ c)
theorem w5_adjacency (c : Dev nD) : W5 m ρ c (Proc.devRef .tc main_arg1) = adjacency m c := by
  show StableHlo.after hostOps1_1 (StableHlo.after hostOps1 (W3 m ρ c)) (Proc.devRef .tc main_arg1) = _
  after_results_simp
  exact w3_adjacency m ρ c
theorem w5_segments (c : Dev nD) : W5 m ρ c (Proc.devRef .tc main_arg2) = segments m c := by
  show StableHlo.after hostOps1_1 (StableHlo.after hostOps1 (W3 m ρ c)) (Proc.devRef .tc main_arg2) = _
  after_results_simp
  exact w3_segments m ρ c
theorem w5_weights (c : Dev nD) : W5 m ρ c (Proc.devRef .tc main_arg4) = weights m c := by
  show StableHlo.after hostOps1_1 (StableHlo.after hostOps1 (W3 m ρ c)) (Proc.devRef .tc main_arg4) = _
  after_results_simp
  exact w3_weights m ρ c
theorem w5_biases (c : Dev nD) : W5 m ρ c (Proc.devRef .tc main_arg5) = biases m c := by
  show StableHlo.after hostOps1_1 (StableHlo.after hostOps1 (W3 m ρ c)) (Proc.devRef .tc main_arg5) = _
  after_results_simp
  exact w3_biases m ρ c
theorem w6_adjacency (c : Dev nD) : W6 m ρ c (Proc.devRef .tc main_arg1) = adjacency m c :=
  ((W6_arr m ρ c 0).trans (((dat1 (V5 m ρ) c).arrAt_in 0 rfl _).trans (A_eq1 (V5 m ρ) c 0))).trans (w5_adjacency m ρ c)
theorem w6_segments (c : Dev nD) : W6 m ρ c (Proc.devRef .tc main_arg2) = segments m c :=
  (W6_of_ne m ρ c main_arg2 (by decide)).trans (w5_segments m ρ c)
theorem w6_weights (c : Dev nD) : W6 m ρ c (Proc.devRef .tc main_arg4) = weights m c :=
  (W6_of_ne m ρ c main_arg4 (by decide)).trans (w5_weights m ρ c)
theorem w6_biases (c : Dev nD) : W6 m ρ c (Proc.devRef .tc main_arg5) = biases m c :=
  (W6_of_ne m ρ c main_arg5 (by decide)).trans (w5_biases m ρ c)
theorem w8_adjacency (c : Dev nD) : W8 m ρ c (Proc.devRef .tc main_arg1) = adjacency m c := by
  show StableHlo.after hostOps2_1 (StableHlo.after hostOps2 (W6 m ρ c)) (Proc.devRef .tc main_arg1) = _
  after_results_simp
  exact w6_adjacency m ρ c
theorem w8_segments (c : Dev nD) : W8 m ρ c (Proc.devRef .tc main_arg2) = segments m c := by
  show StableHlo.after hostOps2_1 (StableHlo.after hostOps2 (W6 m ρ c)) (Proc.devRef .tc main_arg2) = _
  after_results_simp
  exact w6_segments m ρ c
theorem w9_segments (c : Dev nD) : W9 m ρ c (Proc.devRef .tc main_arg2) = segments m c :=
  (W9_of_ne m ρ c main_arg2 (by decide)).trans (w8_segments m ρ c)

/-! ## Layer 1 -/

/-- The first hidden features, at the first region's entry: the reference's stage of the arguments. -/
theorem hidden0 (c : Dev nD) :
    W2 m ρ c (Proc.devRef .tc main_v15) = val_main_v15 (F := Ideal) (fingerprints m c) (table m c) (weights m c) (biases m c) := by
  show StableHlo.after hostOps0_1 (StableHlo.after hostOps0 (W0 m ρ c)) (Proc.devRef .tc main_v15) = _
  after_results_simp
  rfl

/-- The first region's output: adjacency times those features, the reference's matrix product. -/
theorem agg0 (c : Dev nD) :
    W3 m ρ c (Proc.devRef .tc main_v16) = val_main_v16 (F := Ideal) (fingerprints m c) (adjacency m c) (table m c) (weights m c) (biases m c) := by
  refine (W3_arr m ρ c 2).trans ((final0 (V2 m ρ) c).trans ?_)
  show product (W2 m ρ c (Proc.devRef .tc main_arg1)) (W2 m ρ c (Proc.devRef .tc main_v15)) = _
  rw [w2_adjacency m ρ c, hidden0 m ρ c]
  exact (v16_product _ _ _ _ _).symm

/-- The region leaves its feature input as it found it: an input window's array is never written. -/
theorem kept0 (c : Dev nD) :
    W3 m ρ c (Proc.devRef .tc main_v15) = val_main_v15 (F := Ideal) (fingerprints m c) (table m c) (weights m c) (biases m c) :=
  ((W3_arr m ρ c 1).trans (((dat0 (V2 m ρ) c).arrAt_in 1 rfl _).trans (A_eq0 (V2 m ρ) c 1))).trans (hidden0 m ρ c)

/-! ## Layer 2 -/

/-- The second hidden features, at the second region's entry. -/
theorem hidden1 (c : Dev nD) :
    W5 m ρ c (Proc.devRef .tc main_v26) = val_main_v26 (F := Ideal) (fingerprints m c) (adjacency m c) (table m c) (weights m c) (biases m c) := by
  show StableHlo.after hostOps1_1 (StableHlo.after hostOps1 (W3 m ρ c)) (Proc.devRef .tc main_v26) = _
  after_results_simp
  rw [kept0 m ρ c, agg0 m ρ c, w3_weights m ρ c, w3_biases m ρ c]
  rfl

theorem agg1 (c : Dev nD) :
    W6 m ρ c (Proc.devRef .tc main_v27) = val_main_v27 (F := Ideal) (fingerprints m c) (adjacency m c) (table m c) (weights m c) (biases m c) := by
  refine (W6_arr m ρ c 2).trans ((final1 (V5 m ρ) c).trans ?_)
  show product (W5 m ρ c (Proc.devRef .tc main_arg1)) (W5 m ρ c (Proc.devRef .tc main_v26)) = _
  rw [w5_adjacency m ρ c, hidden1 m ρ c]
  exact (v27_product _ _ _ _ _).symm

theorem kept1 (c : Dev nD) :
    W6 m ρ c (Proc.devRef .tc main_v26) = val_main_v26 (F := Ideal) (fingerprints m c) (adjacency m c) (table m c) (weights m c) (biases m c) :=
  ((W6_arr m ρ c 1).trans (((dat1 (V5 m ρ) c).arrAt_in 1 rfl _).trans (A_eq1 (V5 m ρ) c 1))).trans (hidden1 m ρ c)

/-! ## Layer 3 -/

/-- The third hidden features, at the third region's entry. -/
theorem hidden2 (c : Dev nD) :
    W8 m ρ c (Proc.devRef .tc main_v37) = val_main_v37 (F := Ideal) (fingerprints m c) (adjacency m c) (table m c) (weights m c) (biases m c) := by
  show StableHlo.after hostOps2_1 (StableHlo.after hostOps2 (W6 m ρ c)) (Proc.devRef .tc main_v37) = _
  after_results_simp
  rw [kept1 m ρ c, agg1 m ρ c, w6_weights m ρ c, w6_biases m ρ c]
  rfl

theorem agg2 (c : Dev nD) :
    W9 m ρ c (Proc.devRef .tc main_v38) = val_main_v38 (F := Ideal) (fingerprints m c) (adjacency m c) (table m c) (weights m c) (biases m c) := by
  refine (W9_arr m ρ c 2).trans ((final2 (V8 m ρ) c).trans ?_)
  show product (W8 m ρ c (Proc.devRef .tc main_arg1)) (W8 m ρ c (Proc.devRef .tc main_v37)) = _
  rw [w8_adjacency m ρ c, hidden2 m ρ c]
  exact (v38_product _ _ _ _ _).symm

theorem kept2 (c : Dev nD) :
    W9 m ρ c (Proc.devRef .tc main_v37) = val_main_v37 (F := Ideal) (fingerprints m c) (adjacency m c) (table m c) (weights m c) (biases m c) :=
  ((W9_arr m ρ c 1).trans (((dat2 (V8 m ρ) c).arrAt_in 1 rfl _).trans (A_eq2 (V8 m ρ) c 1))).trans (hidden2 m ρ c)

/-! ## The result -/

/-- The sum over each molecule's atoms of the last layer's output: the reference's result of the launch arguments. -/
theorem result (c : Dev nD) :
    W10 m ρ c (Proc.devRef .tc main_v42)
      = val_main_v42 (F := Ideal) (fingerprints m c) (adjacency m c) (segments m c) (table m c) (weights m c) (biases m c) := by
  show StableHlo.after hostOps3 (W9 m ρ c) (Proc.devRef .tc main_v42) = _
  after_results_simp
  rw [kept2 m ρ c, agg2 m ρ c, w9_segments m ρ c]
  rfl

end Cert.KernelIdeal.Layers

end
-- ==== Proof.lean ====
/- A molecular graph network: an embedding lookup, then three message-passing layers — a linear map, a bias and a
   rectifier give hidden features h, and the layer's output is h + adjacency × h — and last the sum of the node
   vectors over each molecule's atoms. The kernel computes each product adjacency × h on the TensorCore, 128 rows
   of the adjacency matrix per grid step against the whole of h, from bf16 copies of both operands into a zero
   accumulator. Over the extended reals the narrowing is the identity and 0 + x = x, so a step's block is those
   128 rows of the whole product; the 128 blocks tile the output, so each region leaves the whole product, which
   is the reference's matrix product entry by entry. Every other operation is the same host operation in both
   programs, and nothing writes an argument, so the two results are one function of the arguments. The
   precondition is never opened: no step needs finiteness. -/
import proofs.«152557_j3049426780241_1_alg».proof.Defs
import proofs.«152557_j3049426780241_1_alg».proof.Proof.Gen.Kernel
import proofs.«152557_j3049426780241_1_alg».proof.Proof.Gen.Kernel.Skeleton
import proofs.«152557_j3049426780241_1_alg».proof.Proof.Gen.Kernel.Launch
import proofs.«152557_j3049426780241_1_alg».proof.Proof.Gen.Kernel.Points
import proofs.«152557_j3049426780241_1_alg».proof.Proof.Gen.Kernel.Frame
import proofs.«152557_j3049426780241_1_alg».proof.Proof.Gen.KernelIdeal
import proofs.«152557_j3049426780241_1_alg».proof.Proof.Gen.KernelIdeal.Skeleton
import proofs.«152557_j3049426780241_1_alg».proof.Proof.Gen.KernelIdeal.Launch
import proofs.«152557_j3049426780241_1_alg».proof.Proof.Gen.KernelIdeal.Points
import proofs.«152557_j3049426780241_1_alg».proof.Proof.Gen.KernelIdeal.Frame
import proofs.«152557_j3049426780241_1_alg».proof.Proof.Gen.ReferenceIdeal
import proofs.«152557_j3049426780241_1_alg».proof.Proof.Gen.Pre_finite_inputs
import proofs.«152557_j3049426780241_1_alg».proof.Proof.Gen.ReferenceIdeal.Run
import proofs.«152557_j3049426780241_1_alg».proof.Proof.Gen.ReferenceIdeal.Read
import proofs.«152557_j3049426780241_1_alg».proof.Proof.KernelIdealRun
import proofs.«152557_j3049426780241_1_alg».proof.Proof.Layers
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the word-level kernel and its idealization run, fault nowhere and leave the arguments: the generated frames
  fun m ρ _ => Cert.Kernel.Gen.frame m ρ,
  fun m ρ _ => Cert.KernelIdeal.Gen.frame m ρ,
  -- the reference's frame is its run with the result dropped
  fun m ρ _ => (θ_run Cert.ReferenceIdeal.defs _ _).mono (fun _ h c => (h c).2) (Cert.ReferenceIdeal.Value.run (F := Ideal) m ρ),
  -- the ideal pass rewrote nothing
  trivial,
  -- both programs end at the reference's last stage of the kernel's launch arguments
  fun m ρ m' ρ' _ hagree =>
    ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     (θ_run Cert.KernelIdeal.defs _ _).mono (fun _ h c => ⟨(h c).1.trans (Cert.KernelIdeal.Layers.result m ρ c), (h c).2⟩)
       (Cert.KernelIdeal.GenRun.run m ρ),
     (θ_run Cert.ReferenceIdeal.defs _ _).mono (fun _ h c => ⟨by
         rw [(h c).1, Cert.ReferenceIdeal.Read.val_main_v42_eq, (hagree c).1, (hagree c).2.1, (hagree c).2.2.1, (hagree c).2.2.2.1,
           (hagree c).2.2.2.2.1, (hagree c).2.2.2.2.2], (h c).2⟩)
       (Cert.ReferenceIdeal.Value.run (F := Ideal) m' ρ')⟩⟩

end Cert.Proof

end
